-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S512x64 : Shape := ⟨2, ![512, 64]⟩
abbrev S512 : Shape := ⟨1, ![512]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S262144x64 .f32) (main_arg1 : FVec F S512x64 .f32) (main_arg2 : FVec F S512 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S262144x64 : Shape := ⟨2, ![262144, 64]⟩
abbrev S512x64 : Shape := ⟨2, ![512, 64]⟩
abbrev S512 : Shape := ⟨1, ![512]⟩
abbrev S64x512 : Shape := ⟨2, ![64, 512]⟩
abbrev S_ : Shape := ⟨0, ![]⟩
abbrev S1x512 : Shape := ⟨2, ![1, 512]⟩
abbrev S262144x512 : Shape := ⟨2, ![262144, 512]⟩
abbrev S2048x64 : Shape := ⟨2, ![2048, 64]⟩
abbrev S2048x512 : Shape := ⟨2, ![2048, 512]⟩
abbrev S2048 : Shape := ⟨1, ![2048]⟩
abbrev S2048x1 : Shape := ⟨2, ![2048, 1]⟩

abbrev nBuf : Space → Nat
  | .hbm => 14
  | .vmem => 7
  | .smem => 0
  | _ => 0

abbrev bufTy : (tb : Table) → Fin (tcTables nBuf tb) → BufTy
  | .hbm, ⟨0, _⟩ => ⟨S262144x64, .f32⟩
  | .hbm, ⟨1, _⟩ => ⟨S512x64, .f32⟩
  | .hbm, ⟨2, _⟩ => ⟨S512, .f32⟩
  | .hbm, ⟨3, _⟩ => ⟨S64x512, .f32⟩
  | .hbm, ⟨4, _⟩ => ⟨S512x64, .f32⟩
  | .hbm, ⟨5, _⟩ => ⟨S_, .f32⟩
  | .hbm, ⟨6, _⟩ => ⟨S512, .f32⟩
  | .hbm, ⟨7, _⟩ => ⟨S1x512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S1x512, .f32⟩
  | .hbm, ⟨13, _⟩ => ⟨S262144x512, .f32⟩
  | .local _ .vmem, ⟨0, _⟩ => ⟨S2048x64, .f32⟩
  | .local _ .vmem, ⟨1, _⟩ => ⟨S2048x64, .f32⟩
  | .local _ .vmem, ⟨2, _⟩ => ⟨S64x512, .f32⟩
  | .local _ .vmem, ⟨3, _⟩ => ⟨S1x512, .f32⟩
  | .local _ .vmem, ⟨4, _⟩ => ⟨S1x512, .f32⟩
  | .local _ .vmem, ⟨5, _⟩ => ⟨S2048x512, .f32⟩
  | .local _ .vmem, ⟨6, _⟩ => ⟨S2048x512, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S512x64_S64x512_1_0 : S512x64.Transposes [1, 0] S64x512
  reducesTo_S512x64_S512_d1 : S512x64.ReducesTo [1] S512
  h_S_ : 0 < S_.numel
  shapeCasts_S512_S1x512 : S512.ShapeCasts S1x512
  bcast_S_S512 : S_.BroadcastsInDim S512 (![] : Fin 0 → Fin S512.rank)
  inb_S2048x64_S2048x64_0_0 : ∀ a, (![0, 0] : Fin 2 → Nat) a + S2048x64.size a ≤ S2048x64.size a
  h_S2048x64 : 0 < S2048x64.numel
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  reduces_S2048x64_S2048 : S2048x64.Reduces [1] S2048
  shapeCasts_S2048_S2048x1 : S2048.ShapeCasts S2048x1
  broadcasts_S2048x1_S2048x512 : S2048x1.Broadcasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x64_S64x512_S2048x512_1_0_0_1_n_n_wf : DotDims.WF S2048x64 S64x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S262144x64.size a
  hwx0_0 : ∀ i : grid0.Coords, EltTy.bits .f32 = 32 ∨ (Rect.block (s := S262144x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S262144x512.size a
  hwx0_4 : ∀ i : grid0.Coords, EltTy.bits .f32 = 32 ∨ (Rect.block (s := S262144x512) S2048x512.size (cc0_transform_4 i) (hinb0_4 i)).WholeWords (EltTy.packing .f32)

variable [Facts₀]

def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x64 : Shape := ⟨2, ![262144, 64]⟩
abbrev S512x64 : Shape := ⟨2, ![512, 64]⟩
abbrev S512 : Shape := ⟨1, ![512]⟩
abbrev S_ : Shape := ⟨0, ![]⟩
abbrev S262144 : Shape := ⟨1, ![262144]⟩
abbrev S262144x1 : Shape := ⟨2, ![262144, 1]⟩
abbrev S262144x512 : Shape := ⟨2, ![262144, 512]⟩
abbrev S1x512 : Shape := ⟨2, ![1, 512]⟩

abbrev nBuf : Space → Nat
  | .hbm => 31
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S512x64, .f32⟩
  | .hbm, ⟨2, _⟩ => ⟨S512, .f32⟩
  | .hbm, ⟨3, _⟩ => ⟨S262144x64, .f32⟩
  | .hbm, ⟨4, _⟩ => ⟨S_, .f32⟩
  | .hbm, ⟨5, _⟩ => ⟨S262144, .f32⟩
  | .hbm, ⟨6, _⟩ => ⟨S262144x1, .f32⟩
  | .hbm, ⟨7, _⟩ => ⟨S512x64, .f32⟩
  | .hbm, ⟨8, _⟩ => ⟨S_, .f32⟩
  | .hbm, ⟨9, _⟩ => ⟨S512, .f32⟩
  | .hbm, ⟨10, _⟩ => ⟨S262144x512, .f32⟩
  | .hbm, ⟨11, _⟩ => ⟨S_, .f32⟩
  | .hbm, ⟨12, _⟩ => ⟨S262144x512, .f32⟩
  | .hbm, ⟨13, _⟩ => ⟨S262144x512, .f32⟩
  | .hbm, ⟨14, _⟩ => ⟨S262144x512, .f32⟩
  | .hbm, ⟨15, _⟩ => ⟨S262144x512, .f32⟩
  | .hbm, ⟨16, _⟩ => ⟨S1x512, .f32⟩
  | .hbm, ⟨17, _⟩ => ⟨S262144x512, .f32⟩
  | .hbm, ⟨18, _⟩ => ⟨S262144x512, .f32⟩
  | .hbm, ⟨19, _⟩ => ⟨S_, .f32⟩
  | .hbm, ⟨20, _⟩ => ⟨S262144x512, .f32⟩
  | .hbm, ⟨21, _⟩ => ⟨S262144x512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S1x512, .f32⟩
  | .hbm, ⟨27, _⟩ => ⟨S262144x512, .f32⟩
  | .hbm, ⟨28, _⟩ => ⟨S262144x512, .f32⟩
  | .hbm, ⟨29, _⟩ => ⟨S262144x512, .f32⟩
  | .hbm, ⟨30, _⟩ => ⟨S262144x512, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  reducesTo_S262144x64_S262144_d1 : S262144x64.ReducesTo [1] S262144
  h_S_ : 0 < S_.numel
  bcast_S262144_S262144x1_0 : S262144.BroadcastsInDim S262144x1 (![0] : Fin 1 → Fin S262144x1.rank)
  reducesTo_S512x64_S512_d1 : S512x64.ReducesTo [1] S512
  bcast_S_S262144x512 : S_.BroadcastsInDim S262144x512 (![] : Fin 0 → Fin S262144x512.rank)
  bcast_S262144x1_S262144x512_0_1 : S262144x1.BroadcastsInDim S262144x512 (![0, 1] : Fin 2 → Fin S262144x512.rank)
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S_S512 : S_.BroadcastsInDim S512 (![] : Fin 0 → Fin S512.rank)
  dot_S262144x64_S512x64_S262144x512_1_1_0_0_n_n_wf : DotDims.WF S262144x64 S512x64 S262144x512 [1] [1] [0] [0] [] []

variable [Facts₀]

def dot_S262144x64_S512x64_S262144x512_1_1_0_0_n_n : DotDims S262144x64 S512x64 S262144x512 where
  lhsContracting := [1]
  rhsContracting := [1]
  lhsNonContracting := [0]
  rhsNonContracting := [0]
  lhsBatch := []
  rhsBatch := []
  wf := dot_S262144x64_S512x64_S262144x512_1_1_0_0_n_n_wf

class Facts : Prop extends Facts₀ where

variable [Facts]
-- ==== Proof.LibColumn.lean ====
/-
  A column of row sums, read at an entry.

  Summing an a × b array along its second axis gives one number per row. Kept as a column (an a × 1 array) and spread
  over b columns it becomes an a × b array whose entry (p, q) is row p's sum, whatever q is. Three steps carry that
  reading, each a renaming of positions in which no arithmetic is done:

  * the length-a vector of sums laid out as an a × 1 column holds, at (p, 0), the vector's entry p: both sit at
    position p when the entries are counted row by row (`shapeCast_a_a1_apply`);
  * the a × 1 column spread over b columns holds, at (p, q), the column's entry (p, 0): the unit axis is read at its
    only coordinate (`broadcastTo_a1_ab_apply`);
  * over the extended reals row p's sum is the sum over k < b of the entries (p, k), for a sum taken inside a kernel
    (`rowSum_apply`, no starting value) and for one taken by the host program, which adds the sum to a starting value
    (`hostRowSum_apply`).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

variable {α : Type}

/-- A length-a vector laid out as an a × 1 column reads, at (p, u), the vector at p: counted row by row, (p, u) is
    position p · 1 + u = p, since the unit axis has the one coordinate u = 0. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a × 1 column spread over b columns reads, at (p, q), the column at (p, 0): the row coordinate is kept (when
    a = 1 it can only be 0 anyway) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A kernel's sum of an a × b array along its second axis, over the extended reals and at row p, is the sum over
    k < b of the entries (p, k): the position the sum reads for k is (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

/-- The host program's sum of an a × b array along its second axis, over the extended reals and at row p, is the
    starting value plus the sum over k < b of the entries (p, k). -/
theorem hostRowSum_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) := by
  refine (Ideal.hostReduceAdd_single h' h x init (ix1 p)).trans ?_
  refine congrArg (init + ·) (Finset.sum_congr rfl fun k _ => congrArg x (funext fun d => Fin.ext ?_))
  match d with
  | ⟨0, _⟩ => rfl
  | ⟨1, _⟩ => rfl

end Cert.LibColumn
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.RbfSpec.lean ====
/-
  The Gaussian radial-basis layer as one function of its three arrays, over the extended reals.

  The layer has 262144 sample rows x_n and 512 centre rows c_o, each of 64 features, and one log-width l_o per centre.
  Its entry (n, o) is

      exp( -max( (|x_n|^2 - 2 * <x_n, c_o>) + |c_o|^2, 0 ) * exp(-2 * l_o) ):

  the squared distance |x_n - c_o|^2 written out as three terms and added in that order, clamped below at zero, scaled
  by the inverse squared width exp(-2 * l_o), negated and passed through the exponential. |.|^2 is a row's sum of
  squares and <.,.> the sum of products over the 64 features. The numbers 2 and -2 are kept as the single-precision
  words both programs spell them with; 0 is the number zero.

  Everything here is a definition: the function is what both programs are shown to compute, and no law of the
  extended reals is needed to state it.
-/
import Idealize.ShloMosaic.PureOps.Ideal.Laws
import Idealize.ShloMosaic.Lib.ValueIdx

noncomputable section

open scoped BigOperators

namespace Cert.Rbf

open Idealize.ShloMosaic Idealize.ShloMosaic.ValueIdx

/-- The word of the single-precision number 2, read over the extended reals. -/
abbrev two : EReal := Ideal.ofBits .f32 0x40000000#32
/-- The word of the single-precision number -2, read over the extended reals. -/
abbrev negTwo : EReal := Ideal.ofBits .f32 0xC0000000#32

/-- |a_r|^2: the sum over the 64 features of the squares of row r. -/
def rowSq {R : ℕ} (a : FVec Ideal ⟨2, ![R, 64]⟩ .f32) (r : Fin R) : EReal :=
  ∑ k : Fin 64, a (ix2 r k) * a (ix2 r k)

/-- <x_n, c_o>: the sum over the 64 features of the products of sample row n and centre row o. -/
def rowDot (x : FVec Ideal ⟨2, ![262144, 64]⟩ .f32) (c : FVec Ideal ⟨2, ![512, 64]⟩ .f32) (n : Fin 262144) (o : Fin 512) :
    EReal :=
  ∑ k : Fin 64, x (ix2 n k) * c (ix2 o k)

/-- exp(-2 * l_o): the inverse squared width of centre o. -/
def invWidthSq (l : FVec Ideal ⟨1, ![512]⟩ .f32) (o : Fin 512) : EReal :=
  Ideal.exp (negTwo * l (ix1 o))

/-- The clamped squared distance between sample n and centre o: the three-term expansion, added left to right, and
    zero where that is negative. -/
def clampedSqDist (x : FVec Ideal ⟨2, ![262144, 64]⟩ .f32) (c : FVec Ideal ⟨2, ![512, 64]⟩ .f32) (n : Fin 262144)
    (o : Fin 512) : EReal :=
  max ((rowSq x n - two * rowDot x c n o) + rowSq c o) 0

/-- The layer's entry (n, o). -/
def rbfAt (x : FVec Ideal ⟨2, ![262144, 64]⟩ .f32) (c : FVec Ideal ⟨2, ![512, 64]⟩ .f32) (l : FVec Ideal ⟨1, ![512]⟩ .f32)
    (n : Fin 262144) (o : Fin 512) : EReal :=
  Ideal.exp (-(clampedSqDist x c n o) * invWidthSq l o)

/-- The layer: the 262144 × 512 array of its entries. -/
def rbf (x : FVec Ideal ⟨2, ![262144, 64]⟩ .f32) (c : FVec Ideal ⟨2, ![512, 64]⟩ .f32) (l : FVec Ideal ⟨1, ![512]⟩ .f32) :
    FVec Ideal ⟨2, ![262144, 512]⟩ .f32 :=
  fun i => rbfAt x c l (i 0) (i 1)

/-- The layer read at the entry with coordinates (n, o). -/
theorem rbf_apply (x : FVec Ideal ⟨2, ![262144, 64]⟩ .f32) (c : FVec Ideal ⟨2, ![512, 64]⟩ .f32)
    (l : FVec Ideal ⟨1, ![512]⟩ .f32) (n : Fin 262144) (o : Fin 512) : rbf x c l (ix2 n o) = rbfAt x c l n o := rfl

end Cert.Rbf
-- ==== Proof.RbfPayload.lean ====
/-
  What the kernel's body stores, read at one entry of its 2048 × 512 tile.

  The body loads a tile X of 2048 sample rows (2048 × 64), the transposed centres T (64 × 512), the row of centre norms
  s (1 × 512) and the row of inverse squared widths w (1 × 512), and stores one 2048 × 512 value. At entry (p, q) that
  value is

      exp( (0 - max( (sum_k X(p,k) * X(p,k)  -  2 * sum_k X(p,k) * T(k,q))  +  s(0,q), 0 )) * w(0,q) ).

  The row sums of squares reach (p, q) as a column spread over the 512 columns; the middle sum is the matrix product of
  X and T into an all-zero tile, both factors first narrowed to half precision, which changes nothing over the extended
  reals; s and w reach (p, q) as one row spread over the 2048 rows. Every other step acts entry by entry.
-/
import proofs.«140818_j43422119362883_1_alg».proof.Proof.Gen.KernelIdeal.Skeleton
import proofs.«140818_j43422119362883_1_alg».proof.Proof.LibColumn
import proofs.«140818_j43422119362883_1_alg».proof.Proof.LibDotPlain
import proofs.«140818_j43422119362883_1_alg».proof.Proof.RbfSpec
import Idealize.ShloMosaic.Lib.ValueLayout
import Idealize.ShloMosaic.Lib.Pipeline.Value

noncomputable section

open scoped BigOperators

namespace Cert.Rbf.Payload

open Cert.KernelIdeal Cert.KernelIdeal.Gen Idealize.ShloMosaic Idealize.ShloMosaic.ValueIdx

/-- The sums of squares of the tile's rows, kept as a column and spread over the 512 columns, at (p, q): row p's sum. -/
theorem rowSq_apply (X : FVec Ideal S2048x64 .f32) (p : Fin 2048) (q : Fin 512) :
    broadcastTo S2048x512 (shapeCast S2048x1
        (multiReduction .add [1] S2048 (mulf X X) 0x00000000#32 reduces_S2048x64_S2048 (.inl rfl) rfl)
        shapeCasts_S2048_S2048x1) broadcasts_S2048x1_S2048x512 (ix2 p q)
      = ∑ k : Fin 64, X (ix2 p k) * X (ix2 p k) := by
  rw [Cert.LibColumn.broadcastTo_a1_ab_apply, Cert.LibColumn.shapeCast_a_a1_apply]
  exact Cert.LibColumn.rowSum_apply (mulf X X) _ _ _ _ p

/-- The product of the tile and the transposed centres into the all-zero tile, both narrowed to half precision first,
    at (p, q): the sum over the 64 features of X(p,k) * T(k,q). The printed dimension numbers are those of the plain
    product of a 2048 × 64 by a 64 × 512 array. -/
theorem cross_apply (X : FVec Ideal S2048x64 .f32) (T : FVec Ideal S64x512 .f32) (p : Fin 2048) (q : Fin 512) :
    matmul dot_S2048x64_S64x512_S2048x512_1_0_0_1_n_n none (truncf .bf16 X bitsLt_bf16_f32)
        (truncf .bf16 (shapeCast S64x512 T shapeCasts_S64x512_S64x512) bitsLt_bf16_f32)
        (constant (F := Ideal) S2048x512 .f32 0x00000000#32) (ix2 p q)
      = ∑ k : Fin 64, X (ix2 p k) * T (ix2 k q) := by
  rw [shapeCast_self]
  exact Cert.LibDotPlain.matmul_zero_plain 2048 64 512 none (truncf .bf16 X bitsLt_bf16_f32)
    (truncf .bf16 T bitsLt_bf16_f32) p q

/-- A 1 × 512 row spread over the 2048 rows, at (p, q): the row's entry q. -/
theorem row_apply (r : FVec Ideal S1x512 .f32) (p : Fin 2048) (q : Fin 512) :
    broadcastTo S2048x512 (shapeCast S1x512 r shapeCasts_S1x512_S1x512) broadcasts_S1x512_S2048x512 (ix2 p q)
      = r (ix2 (0 : Fin 1) q) := by
  rw [shapeCast_self]
  exact broadcastTo_1b_ab_apply r _ p q

/-- The stored value at entry (p, q), as arithmetic on the four loaded blocks. -/
theorem stored_apply (X : FVec Ideal S2048x64 .f32) (T : FVec Ideal S64x512 .f32) (s w : FVec Ideal S1x512 .f32)
    (p : Fin 2048) (q : Fin 512) :
    k0_pay1 (F := Ideal) X T s w (ix2 p q)
      = Ideal.exp ((Ideal.ofBits .f32 0x00000000#32
          - max (((∑ k : Fin 64, X (ix2 p k) * X (ix2 p k)) - Cert.Rbf.two * ∑ k : Fin 64, X (ix2 p k) * T (ix2 k q))
              + s (ix2 (0 : Fin 1) q)) (Ideal.ofBits .f32 0x00000000#32))
          * w (ix2 (0 : Fin 1) q)) :=
  congrArg Ideal.exp (congrArg₂ (· * ·)
    (congrArg (fun z : EReal => Ideal.ofBits .f32 0x00000000#32 - max z (Ideal.ofBits .f32 0x00000000#32))
      (congrArg₂ (· + ·)
        (congrArg₂ (· - ·) (rowSq_apply X p q) (congrArg (Cert.Rbf.two * ·) (cross_apply X T p q)))
        (row_apply s p q)))
    (row_apply w p q))

end Cert.Rbf.Payload
-- ==== Proof.RbfGlue.lean ====
/-
  What the kernel finds in the three arrays the surrounding program prepares for it.

  Before the kernel runs, the program turns the centres C (512 × 64) and the log-widths l (512) into three arrays:

  * the centres transposed, a 64 × 512 array holding C(o, k) at (k, o);
  * the centre norms as a 1 × 512 row holding, at (0, o), zero plus the sum over the 64 features of C(o, k) * C(o, k),
    which over the extended reals is just that sum of squares;
  * the inverse squared widths as a 1 × 512 row holding, at (0, o), exp(-2 * l_o).

  The samples themselves (262144 × 64) reach the kernel as launched. Laying a length-512 vector out as a 1 × 512 row
  keeps entry o at (0, o).
-/
import proofs.«140818_j43422119362883_1_alg».proof.Proof.Gen.KernelIdeal.Frame
import proofs.«140818_j43422119362883_1_alg».proof.Proof.LibColumn
import proofs.«140818_j43422119362883_1_alg».proof.Proof.RbfSpec
import Idealize.ShloMosaic.Lib.ValueLayout
import Idealize.ShloMosaic.Lib.StableHlo.Run

noncomputable section

open scoped BigOperators

namespace Cert.Rbf.Glue

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The samples as launched on core `c`. -/
abbrev samples (c : Dev nD) : FVec Ideal S262144x64 .f32 := m ((c : Thread nD τ).loc main_arg0)
/-- The centres as launched on core `c`. -/
abbrev centres (c : Dev nD) : FVec Ideal S512x64 .f32 := m ((c : Thread nD τ).loc main_arg1)
/-- The log-widths as launched on core `c`. -/
abbrev logWidths (c : Dev nD) : FVec Ideal S512 .f32 := m ((c : Thread nD τ).loc main_arg2)

/-! ## The samples -/

theorem samples_eq (c : Dev nD) : (V m c main_arg0 : S262144x64.Idx → EReal) = samples m c := V_main_arg0 m c

/-! ## The transposed centres -/

theorem transposed_eq (c : Dev nD) :
    (V m c main_v0 : S64x512.Idx → EReal) = transpose S64x512 [1, 0] (centres m c) transposes_S512x64_S64x512_1_0 := by
  dsimp only [V, hostOps0]
  after_results

/-- The transposed centres hold C(o, k) at (k, o). -/
theorem transposed_apply (c : Dev nD) (k : Fin 64) (o : Fin 512) :
    (V m c main_v0 : S64x512.Idx → EReal) (ix2 k o) = centres m c (ix2 o k) :=
  (congrFun (transposed_eq m c) (ix2 k o)).trans (transpose_ix2_apply (centres m c) _ k o)

/-! ## The centre norms -/

theorem norms_eq (c : Dev nD) :
    (V m c main_v3 : S1x512.Idx → EReal)
      = shapeCast S1x512 (Host.reduceAdd (F := Ideal) (mulf (centres m c) (centres m c))
          (constant (F := Ideal) S_ .f32 0x00000000#32) reducesTo_S512x64_S512_d1 h_S_) shapeCasts_S512_S1x512 := by
  dsimp only [V, hostOps0]
  after_results
  rfl

/-- The norms' row holds centre o's sum of squares at (0, o): the starting value of the host's sum is zero. -/
theorem norms_apply (c : Dev nD) (o : Fin 512) :
    (V m c main_v3 : S1x512.Idx → EReal) (ix2 (0 : Fin 1) o) = Cert.Rbf.rowSq (centres m c) o := by
  refine (congrFun (norms_eq m c) (ix2 (0 : Fin 1) o)).trans ?_
  refine (shapeCast_a_1a_apply _ _ (0 : Fin 1) o).trans ?_
  simp only [Host.reduceAdd, Ideal.hostReduceAdd_def]
  refine (Cert.LibColumn.hostRowSum_apply reducesTo_S512x64_S512_d1 (by decide) _ _ o).trans ?_
  show Ideal.ofBits .f32 0x00000000#32 + _ = _
  rw [Ideal.ofBits_zero_f32, zero_add]
  rfl

/-! ## The inverse squared widths -/

theorem widths_eq (c : Dev nD) :
    (V m c main_v7 : S1x512.Idx → EReal)
      = shapeCast S1x512 (Host.exp (F := Ideal) (mulf (broadcastInDim S512 ![] bcast_S_S512
          (constant (F := Ideal) S_ .f32 0xC0000000#32)) (logWidths m c))) shapeCasts_S512_S1x512 := by
  dsimp only [V, hostOps0]
  after_results
  rfl

/-- The widths' row holds exp(-2 * l_o) at (0, o). -/
theorem widths_apply (c : Dev nD) (o : Fin 512) :
    (V m c main_v7 : S1x512.Idx → EReal) (ix2 (0 : Fin 1) o) = Cert.Rbf.invWidthSq (logWidths m c) o := by
  refine (congrFun (widths_eq m c) (ix2 (0 : Fin 1) o)).trans ?_
  exact shapeCast_a_1a_apply _ _ (0 : Fin 1) o

end Cert.Rbf.Glue
-- ==== Proof.RbfArray.lean ====
/-
  From the tiles the kernel writes to the whole output array.

  The kernel visits 128 grid points. At point t it reads sample rows 2048 t … 2048 t + 2047 (a 2048 × 64 tile), the
  whole transposed centres, the whole row of centre norms and the whole row of inverse squared widths, and writes back
  output rows 2048 t … 2048 t + 2047 (a 2048 × 512 tile). Entry (p, q) of that tile is the layer's entry
  (2048 t + p, q): the body's arithmetic on the tile's row p is the layer's arithmetic on sample row 2048 t + p, the
  transposed centres give back centre row q, and the two prepared rows hold centre q's sum of squares and inverse
  squared width (`tile_entry`, `written_back`). The 128 output tiles cover every row of the 262144 × 512 array once
  (row r lies in tile r / 2048), so after the run the array is the layer (`output_eq`, `run`).
-/
import proofs.«140818_j43422119362883_1_alg».proof.Proof.Gen.KernelIdeal.Value
import proofs.«140818_j43422119362883_1_alg».proof.Proof.RbfPayload
import proofs.«140818_j43422119362883_1_alg».proof.Proof.RbfGlue
import Idealize.ShloMosaic.Lib.Pipeline.Value

noncomputable section

open scoped BigOperators

namespace Cert.Rbf.Array

open Cert.KernelIdeal Cert.KernelIdeal.Gen Cert.KernelIdeal.Value Cert.Rbf.Glue
open Idealize.ShloMosaic Idealize.ShloMosaic.TcCoe Idealize.ShloMosaic.ValueIdx Idealize.SL.Sem
open Idealize.ShloMosaic.Pipeline (Dat)

/-! ## One entry of a tile, over plain arrays -/

/-- If a tile's row p holds sample row n, the transposed-centres block holds centre row o in its column o, and the two
    prepared rows hold centre o's sum of squares and inverse squared width, then the value the body stores at (p, o)
    is the layer's entry (n, o). The body writes the negation as zero minus the clamped distance, which over the
    extended reals is the negation. -/
theorem tile_entry (x : FVec Ideal S262144x64 .f32) (C : FVec Ideal S512x64 .f32) (l : FVec Ideal S512 .f32)
    (X : FVec Ideal S2048x64 .f32) (T : FVec Ideal S64x512 .f32) (s w : FVec Ideal S1x512 .f32)
    (n : Fin 262144) (p : Fin 2048) (o : Fin 512)
    (hX : ∀ k : Fin 64, X (ix2 p k) = x (ix2 n k))
    (hT : ∀ k : Fin 64, T (ix2 k o) = C (ix2 o k))
    (hs : s (ix2 (0 : Fin 1) o) = Cert.Rbf.rowSq C o)
    (hw : w (ix2 (0 : Fin 1) o) = Cert.Rbf.invWidthSq l o) :
    k0_pay1 (F := Ideal) X T s w (ix2 p o) = Cert.Rbf.rbfAt x C l n o := by
  rw [Cert.Rbf.Payload.stored_apply, hs, hw, Ideal.ofBits_zero_f32, zero_sub]
  simp only [hX, hT]
  rfl

variable (m : (ℓ : Loc nD τ sig) → Buf (Elt Ideal) ℓ) (ρ : Dev nD → PrngReg)

/-! ## Which rows each window's block holds at a grid point -/

theorem hz : (![0, 0] : Fin 2 → Nat) = fun _ => 0 := funext fun a => by fin_cases a <;> rfl

/-- The five index maps over the 128 points: the sample and output windows move down one tile of rows per point and
    never sideways; the three prepared arrays are read whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of the sample tile at point t is sample row 2048 t + p. -/
theorem sample_tile (c : Dev nD) (t : Fin cfg0.N) (p : Fin 2048) (k : Fin 64) (n : Fin 262144)
    (hn : n.val = 2048 * t.val + p.val) :
    (iblk m c 0 t : S2048x64.Idx → EReal) (ix2 p k) = samples m c (ix2 n k) := by
  obtain ⟨e0, e1, -⟩ := idx_facts t
  show (V m c main_arg0 : S262144x64.Idx → EReal) (((cfg0.win 0).blk t).view.emb (ix2 p k)) = _
  refine (congrFun (samples_eq m c) _).trans (congrArg (samples m c) (funext fun a => Fin.ext ?_))
  match a with
  | ⟨0, _⟩ => show win0_0.index t (0 : Fin 2) * 2048 + 1 * p.val = n.val; rw [e0, hn]; omega
  | ⟨1, _⟩ => show win0_0.index t (1 : Fin 2) * 64 + 1 * k.val = k.val; rw [e1]; omega

/-- The transposed-centres block at any point is the whole transposed array. -/
theorem transposed_block (c : Dev nD) (t : Fin cfg0.N) (k : Fin 64) (o : Fin 512) :
    (iblk m c 1 t : S64x512.Idx → EReal) (ix2 k o) = (V m c main_v0 : S64x512.Idx → EReal) (ix2 k o) := by
  obtain ⟨-, -, e0, e1, -⟩ := idx_facts t
  show (V m c main_v0 : S64x512.Idx → EReal) (((cfg0.win 1).blk t).view.emb (ix2 k o)) = _
  refine congrArg (V m c main_v0 : S64x512.Idx → EReal) (funext fun a => Fin.ext ?_)
  match a with
  | ⟨0, _⟩ => show win0_1.index t (0 : Fin 2) * 64 + 1 * k.val = k.val; rw [e0]; omega
  | ⟨1, _⟩ => show win0_1.index t (1 : Fin 2) * 512 + 1 * o.val = o.val; rw [e1]; omega

/-- The centre-norms block at any point is the whole row of norms. -/
theorem norms_block (c : Dev nD) (t : Fin cfg0.N) (o : Fin 512) :
    (iblk m c 2 t : S1x512.Idx → EReal) (ix2 (0 : Fin 1) o) = (V m c main_v3 : S1x512.Idx → EReal) (ix2 (0 : Fin 1) o) := by
  obtain ⟨-, -, -, -, e0, e1, -⟩ := idx_facts t
  show (V m c main_v3 : S1x512.Idx → EReal) (((cfg0.win 2).blk t).view.emb (ix2 (0 : Fin 1) o)) = _
  refine congrArg (V m c main_v3 : S1x512.Idx → EReal) (funext fun a => Fin.ext ?_)
  match a with
  | ⟨0, _⟩ => show win0_2.index t (0 : Fin 2) * 1 + 1 * 0 = 0; rw [e0]
  | ⟨1, _⟩ => show win0_2.index t (1 : Fin 2) * 512 + 1 * o.val = o.val; rw [e1]; omega

/-- The widths block at any point is the whole row of inverse squared widths. -/
theorem widths_block (c : Dev nD) (t : Fin cfg0.N) (o : Fin 512) :
    (iblk m c 3 t : S1x512.Idx → EReal) (ix2 (0 : Fin 1) o) = (V m c main_v7 : S1x512.Idx → EReal) (ix2 (0 : Fin 1) o) := by
  obtain ⟨-, -, -, -, -, -, e0, e1, -⟩ := idx_facts t
  show (V m c main_v7 : S1x512.Idx → EReal) (((cfg0.win 3).blk t).view.emb (ix2 (0 : Fin 1) o)) = _
  refine congrArg (V m c main_v7 : S1x512.Idx → EReal) (funext fun a => Fin.ext ?_)
  match a with
  | ⟨0, _⟩ => show win0_3.index t (0 : Fin 2) * 1 + 1 * 0 = 0; rw [e0]
  | ⟨1, _⟩ => show win0_3.index t (1 : Fin 2) * 512 + 1 * o.val = o.val; rw [e1]; omega

/-! ## What a point writes back -/

/-- The layer of the arrays as launched on core `c`. -/
abbrev layer (c : Dev nD) : FVec Ideal S262144x512 .f32 :=
  Cert.Rbf.rbf (samples m c) (centres m c) (logWidths m c)

/-- Point t writes back rows 2048 t … 2048 t + 2047 of the layer. -/
theorem written_back (c : Dev nD) (t : Fin cfg0.N) :
    (dats m 0 c).flushed 4 t = ((cfg0.win 4).blk t).view.read (Elt Ideal) (layer m c) := by
  rw [flushed4]
  unfold out0_4
  rw [View.canon_unit_zero hz]
  simp only [View.ld_unit_zero (S := S2048x64) hz, View.ld_unit_zero (S := S64x512) hz,
    View.ld_unit_zero (S := S1x512) hz]
  obtain ⟨-, -, -, -, -, -, -, -, e0, e1⟩ := idx_facts t
  have ht : t.val < 128 := lt_of_lt_of_eq t.isLt N_0
  funext j
  have hj0 : (j 0).val < 2048 := (j 0).isLt
  have hj1 : (j 1).val < 512 := (j 1).isLt
  have hn : 2048 * t.val + (j 0).val < 262144 := by omega
  have hl : (cfg0.win 4).xinj (grid0.coords t) j = ix2 (⟨(j 0).val, hj0⟩ : Fin 2048) (⟨(j 1).val, hj1⟩ : Fin 512) :=
    funext fun a => by match a with | ⟨0, _⟩ => rfl | ⟨1, _⟩ => rfl
  have hr : ((cfg0.win 4).blk t).view.emb j
      = ix2 (⟨2048 * t.val + (j 0).val, hn⟩ : Fin 262144) (⟨(j 1).val, hj1⟩ : Fin 512) :=
    funext fun a => Fin.ext (by
      match a with
      | ⟨0, _⟩ => show win0_4.index t (0 : Fin 2) * 2048 + 1 * (j 0).val = 2048 * t.val + (j 0).val; rw [e0]; omega
      | ⟨1, _⟩ => show win0_4.index t (1 : Fin 2) * 512 + 1 * (j 1).val = (j 1).val; rw [e1]; omega)
  show k0_pay1 (F := Ideal) (iblk m c 0 t) (iblk m c 1 t) (iblk m c 2 t) (iblk m c 3 t)
      ((cfg0.win 4).xinj (grid0.coords t) j) = layer m c (((cfg0.win 4).blk t).view.emb j)
  rw [hl, hr]
  exact tile_entry (samples m c) (centres m c) (logWidths m c) (iblk m c 0 t) (iblk m c 1 t) (iblk m c 2 t)
    (iblk m c 3 t) ⟨2048 * t.val + (j 0).val, hn⟩ ⟨(j 0).val, hj0⟩ ⟨(j 1).val, hj1⟩
    (fun k => sample_tile m c t ⟨(j 0).val, hj0⟩ k ⟨2048 * t.val + (j 0).val, hn⟩ rfl)
    (fun k => (transposed_block m c t k ⟨(j 1).val, hj1⟩).trans (transposed_apply m c k ⟨(j 1).val, hj1⟩))
    ((norms_block m c t ⟨(j 1).val, hj1⟩).trans (norms_apply m c ⟨(j 1).val, hj1⟩))
    ((widths_block m c t ⟨(j 1).val, hj1⟩).trans (widths_apply m c ⟨(j 1).val, hj1⟩))

/-! ## The whole array -/

/-- An index of the output array is in point t's tile when each coordinate is in the tile's range. -/
theorem mem_tile (t : Fin cfg0.N) (i : S262144x512.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v8).slice (win0_4.rect t)).set ↔ _
  rw [View.set_slice_whole, Rect.mem_set_unit]
  exact Iff.rfl

/-- Every index of the output array lies in the tile of some point: row r lies in tile r / 2048. -/
theorem covered (i : S262144x512.Idx) :
    ∃ t : Fin cfg0.N, (cfg0.win 4).flush t = true ∧ i ∈ ((cfg0.win 4).blk t).view.set := by
  have hi0 : (i 0).val < 262144 := (i 0).isLt
  have hi1 : (i 1).val < 512 := (i 1).isLt
  have hN : cfg0.N = 128 := N_0
  let t : Fin cfg0.N := ⟨(i 0).val / 2048, by rw [hN]; omega⟩
  obtain ⟨-, -, -, -, -, -, -, -, e0, e1⟩ := idx_facts t
  have htv : t.val = (i 0).val / 2048 := rfl
  refine ⟨t, flush0_4 t, ?_⟩
  rw [mem_tile]
  intro a
  match a with
  | ⟨0, _⟩ =>
    show win0_4.index t (0 : Fin 2) * 2048 ≤ (i 0).val ∧ (i 0).val < win0_4.index t (0 : Fin 2) * 2048 + 2048
    rw [e0, htv]; omega
  | ⟨1, _⟩ =>
    show win0_4.index t (1 : Fin 2) * 512 ≤ (i 1).val ∧ (i 1).val < win0_4.index t (1 : Fin 2) * 512 + 512
    rw [e1]; omega

/-- After the run the output array is the layer of the arrays as launched. -/
theorem output_eq (c : Dev nD) : (dats m 0 c).arrAt 4 cfg0.N = layer m c :=
  (dats m 0 c).arrAt_eq_of_cover 4 (layer m c) (fun t _ => written_back m c t) covered

/-- The kernel program's run: it terminates without a fault, its result array holds the layer and its three
    argument arrays are unchanged. -/
theorem run : θ_run defs (onTc (τ := τ) (main (F := Ideal))) ⟨m, fun _ => 0, ρ⟩ fun r => ∀ c : Dev nD,
      r.2.mem ((c : Thread nD τ).loc main_v8) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (output_eq m c), (h c).2⟩) (run_blocks m ρ)

end Cert.Rbf.Array
-- ==== Proof.RbfRef.lean ====
/-
  The reference computes the layer.

  The reference program forms, whole array by whole array, the samples' row sums of squares, the centres' row sums of
  squares, the 262144 × 512 array of products of sample rows with centre rows, twice that array, the difference and the
  sum that make up the expanded squared distance, its maximum with zero, its negation, the inverse squared widths
  exp(-2 * l), the product and the final exponential. Read at entry (n, o) each step reads its operands at (n, o), at row
  n, at row o or at position o, so the entry is

      exp( -max( (sum_k x(n,k)^2 - 2 * sum_k x(n,k) * c(o,k)) + sum_k c(o,k)^2, 0 ) * exp(-2 * l_o) ):

  the layer's entry. The two sums of squares start from the number zero, which adds nothing.
-/
import proofs.«140818_j43422119362883_1_alg».proof.Proof.Gen.ReferenceIdeal.Read
import proofs.«140818_j43422119362883_1_alg».proof.Proof.RbfSpec

noncomputable section

open scoped BigOperators

namespace Cert.Rbf.Ref

open Cert.ReferenceIdeal Cert.ReferenceIdeal.Gen Cert.ReferenceIdeal.Read
open Idealize.ShloMosaic Idealize.ShloMosaic.ValueIdx

/-- The reference's last stage, as a function of the three argument arrays, is the layer. -/
theorem reference_eq (x : FVec Ideal S262144x64 .f32) (C : FVec Ideal S512x64 .f32) (l : FVec Ideal S512 .f32) :
    val_main_v22 (F := Ideal) x C l = Cert.Rbf.rbf x C l := by
  funext i
  obtain ⟨n, o, rfl⟩ : ∃ (n : Fin 262144) (o : Fin 512), i = ix2 n o := ⟨i 0, i 1, eq_ix2 i⟩
  -- where each step reads its operands, for the entry (n, o)
  have sampleRow : ∀ k : Fin 64, idx_main_v1 (idx_main_v2 (idx_main_v8 (ix2 n o))) k = ix2 n k := fun k =>
    funext fun a => by match a with | ⟨0, _⟩ => rfl | ⟨1, _⟩ => rfl
  have centreRow : ∀ k : Fin 64, idx_main_v4 (idx_main_v10 (idx_main_v11 (ix2 n o))) k = ix2 o k := fun k =>
    funext fun a => by match a with | ⟨0, _⟩ => rfl | ⟨1, _⟩ => rfl
  have leftRow : ∀ k : Fin 64, lidx_main_v5 (ix2 n o) k = ix2 n k := fun k =>
    funext fun a => by match a with | ⟨0, _⟩ => rfl | ⟨1, _⟩ => rfl
  have rightRow : ∀ k : Fin 64, ridx_main_v5 (ix2 n o) k = ix2 o k := fun k =>
    funext fun a => by match a with | ⟨0, _⟩ => rfl | ⟨1, _⟩ => rfl
  have widthPos : idx_main_v18 (idx_main_v20 (ix2 n o)) = ix1 o :=
    funext fun a => by match a with | ⟨0, _⟩ => rfl
  rw [val_main_v22_apply, val_main_v21_apply, val_main_v19_apply, val_main_v14_apply, val_main_v12_apply,
    val_main_v9_apply, val_main_v8_apply, val_main_v2_apply, val_main_v1_apply, val_main_v7_apply, val_main_v6_apply,
    val_main_v5_apply, val_main_v11_apply, val_main_v10_apply, val_main_v4_apply, val_main_v13_apply,
    val_main_v20_apply, val_main_v18_apply, val_main_v17_apply, val_main_v16_apply, val_main_v15_apply]
  simp only [val_main_v0_apply, val_main_v3_apply, val_main_cst_apply, val_main_cst_0_apply, val_main_cst_1_apply,
    val_main_cst_2_apply, val_main_cst_3_apply, sampleRow, centreRow, leftRow, rightRow, widthPos,
    Ideal.mulf_def, Ideal.addf_def, Ideal.subf_def, Ideal.maximumf_def, Ideal.hostNegf_def, Ideal.negf_def,
    Ideal.hostUnary_exp_def, Ideal.ofBits_def, Ideal.ofBits_zero_f32, zero_add]
  rfl

end Cert.Rbf.Ref
-- ==== Proof.lean ====
/-
  A Gaussian radial-basis layer computed tile by tile on the chip agrees, over the extended reals, with the layer
  computed whole-array by whole-array.

  For 262144 sample rows x_n and 512 centre rows c_o of 64 features each, and one log-width l_o per centre, the layer's
  entry (n, o) is

      exp( -max( (|x_n|^2 - 2 * <x_n, c_o>) + |c_o|^2, 0 ) * exp(-2 * l_o) )

  (Proof/RbfSpec.lean). Both programs spell the numbers 2, -2 and 0 with the same words, add the three terms of the
  squared distance in the same order and use the same maximum and exponential, so no law of the extended reals beyond
  "zero plus a is a" and "zero minus a is minus a" is needed, and the inputs' finiteness is never used.

  The tiled program first prepares the centres transposed, the centres' sums of squares and the inverse squared
  widths (Proof/RbfGlue.lean), then at each of 128 grid points turns 2048 sample rows into 2048 output rows: the cross
  term <x_n, c_o> is a matrix product with the transposed centres into an all-zero tile, after both factors are narrowed
  to half precision, which is the identity over the extended reals (Proof/RbfPayload.lean, with the general readings of
  Proof/LibDotPlain.lean and Proof/LibColumn.lean); the 128 output tiles cover the output array exactly
  (Proof/RbfArray.lean). The whole-array program is read one operation at a time at an entry (Proof/RbfRef.lean).

  The three programs' runs terminate without a fault and leave their arguments unchanged: for the two tiled programs
  by their generated frames, for the whole-array program by its generated run. Nothing was rewritten in idealizing the
  tiled program, so there is nothing to preserve.
-/
import proofs.«140818_j43422119362883_1_alg».proof.Defs
import proofs.«140818_j43422119362883_1_alg».proof.Proof.Gen.Kernel
import proofs.«140818_j43422119362883_1_alg».proof.Proof.Gen.Kernel.Skeleton
import proofs.«140818_j43422119362883_1_alg».proof.Proof.Gen.Kernel.Launch
import proofs.«140818_j43422119362883_1_alg».proof.Proof.Gen.Kernel.Points
import proofs.«140818_j43422119362883_1_alg».proof.Proof.Gen.Kernel.Frame
import proofs.«140818_j43422119362883_1_alg».proof.Proof.Gen.KernelIdeal
import proofs.«140818_j43422119362883_1_alg».proof.Proof.Gen.KernelIdeal.Skeleton
import proofs.«140818_j43422119362883_1_alg».proof.Proof.Gen.KernelIdeal.Launch
import proofs.«140818_j43422119362883_1_alg».proof.Proof.Gen.KernelIdeal.Points
import proofs.«140818_j43422119362883_1_alg».proof.Proof.Gen.KernelIdeal.Frame
import proofs.«140818_j43422119362883_1_alg».proof.Proof.Gen.ReferenceIdeal
import proofs.«140818_j43422119362883_1_alg».proof.Proof.Gen.KernelIdeal.Value
import proofs.«140818_j43422119362883_1_alg».proof.Proof.Gen.ReferenceIdeal.Run
import proofs.«140818_j43422119362883_1_alg».proof.Proof.Gen.ReferenceIdeal.Read
import proofs.«140818_j43422119362883_1_alg».proof.Proof.Gen.Pre_finite_inputs
import proofs.«140818_j43422119362883_1_alg».proof.Proof.RbfArray
import proofs.«140818_j43422119362883_1_alg».proof.Proof.RbfRef
import Idealize.ShloMosaic.Adequacy
import Idealize.ShloMosaic.Init

noncomputable section

namespace Cert.Proof

open Idealize.ShloMosaic Idealize.SL.Sem

/-- The tiled program as printed runs to the end and keeps its arguments. -/
theorem frame_kernel : Cert.frame_Kernel := fun m ρ _ => Cert.Kernel.Gen.frame m ρ

/-- So does the tiled program read over the extended reals. -/
theorem frame_kernelIdeal : Cert.frame_KernelIdeal := fun m ρ _ => Cert.KernelIdeal.Gen.frame m ρ

/-- So does the whole-array program: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- Idealizing the tiled program rewrote nothing. -/
theorem preserves : Cert.preserves_Kernel_KernelIdeal := trivial

/-- From memories that agree on the samples, the centres and the log-widths, the tiled program's result array ends at
    the layer of its arguments (Proof/RbfArray.lean) and the whole-array program's at its last stage of its arguments,
    which is the layer too (Proof/RbfRef.lean); the arguments agree, so the two results are equal entry by entry. -/
theorem algebraic : Cert.algebraic_KernelIdeal_ReferenceIdeal := by
  intro m ρ m' ρ' _ hagree
  refine ⟨fun c => Cert.Rbf.Array.layer m c, Cert.Rbf.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Rbf.Ref.reference_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
